-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000, .f32⟩
  | 5 => ⟨S100000x1, .f32⟩
  | 6 => ⟨S100000x1, .f32⟩
  | 7 => ⟨S100000x64, .f32⟩
  | 8 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.DenseOne.lean ====
import proofs.«124625_j51677046505721_1_alg».proof.Proof.Gen.KernelIdeal.Frame
import proofs.«124625_j51677046505721_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Idealize.ShloMosaic Idealize.ShloMosaic.TcCoe Idealize.SL.Sem
open Cert.KernelIdeal Cert.KernelIdeal.Gen
open Cert.ReferenceIdeal.ReadP

/-! ## One block's product, entry by entry

The body multiplies a block of 5000 rows (5000 × 128) by the whole 128 × 128 weight matrix into a zero accumulator.
Over the extended reals the two roundings to bf16 change nothing and the product's entry (r, n) is the plain sum
over k of block[r, k] · weight[k, n]. -/

/-- The left operand's index on its row axis is the output row. -/
theorem dense1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's index on its column axis is the contracted index. -/
theorem dense1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index on its row axis is the contracted index. -/
theorem dense1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's index on its column axis is the output column. -/
theorem dense1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, k) of the block of rows, for the output entry (r, n). -/
abbrev dense1_blockRow (j : S5000x128.Idx) (k : Fin 128) : S5000x128.Idx := fun a => match a with
  | ⟨0, _⟩ => ⟨(j 0).val, (j 0).isLt⟩
  | ⟨1, _⟩ => ⟨k.val, k.isLt⟩
/-- Entry (k, n) of the weight matrix, for the output entry (r, n). -/
abbrev dense1_weightCol (j : S5000x128.Idx) (k : Fin 128) : S128x128.Idx := fun a => match a with
  | ⟨0, _⟩ => ⟨k.val, k.isLt⟩
  | ⟨1, _⟩ => ⟨(j 1).val, (j 1).isLt⟩

/-- The block's product at (r, n) is the sum over k of block[r, k] · weight[k, n]: the changes of format are the
    identity, the accumulator is zero, and the one contracted axis is re-indexed by 0 … 127. -/
theorem dense1_block_apply (x0 : Vec Ideal S5000x128 .f32) (x1 : Vec Ideal S128x128 .f32) (j : S5000x128.Idx) :
    k0_pay1 (F := Ideal) x0 x1 j = ∑ k : Fin 128, x0 (dense1_blockRow j k) * x1 (dense1_weightCol j k) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = dense1_blockRow j k := funext fun a => Fin.ext (by
    match a with
    | ⟨0, _⟩ => exact dense1_lhs_0 _ _
    | ⟨1, _⟩ => exact (dense1_lhs_1 _ _).trans hk)
  have er : dot_S5000x128_S128x128_S5000x128_1_0_0_1_n_n.rhsIdx j ((ValueIdx.contrEquiv1 dot_S5000x128_S128x128_S5000x128_1_0_0_1_n_n 128 rfl rfl).symm k) = dense1_weightCol j k := funext fun a => Fin.ext (by
    match a with
    | ⟨0, _⟩ => exact (dense1_rhs_0 _ _).trans hk
    | ⟨1, _⟩ => exact dense1_rhs_1 _ _)
  rw [el, er]
  rfl

/-! ## From the twenty blocks to the array

Grid point t reads rows 5000·t … 5000·t + 4999 of the left array and the whole weight matrix, and writes rows
5000·t … 5000·t + 4999 of the result. So what it writes back is that block of rows of the one product of the whole
arrays, and the twenty blocks fill the result: row r lies in block r / 5000. -/

/-- Every access of the body starts at the block's origin. -/
theorem dense1_zero_offsets : (![0, 0] : Fin 2 → Nat) = fun _ => 0 := funext fun a => by fin_cases a <;> rfl

/-- The block indices at grid point t, decided over the twenty points: the rows' block and the result's block are
    block t of their arrays, the weights' block is the whole matrix, and no window moves along the columns. -/
theorem dense1_block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the product of the whole arrays: entry (r, n) of the block's product
    is the sum over k of features[5000·t + r, k] · weights[k, n], which is the whole product's entry (5000·t + r, n). -/
theorem dense1_flushed (c : Dev nD) (t : Fin cfg0.N) :
    (dat0 (F := Ideal) V c).flushed 2 t
      = ((cfg0.win 2).blk t).view.read (Elt Ideal) (val_main_v7 (F := Ideal) (V c main_arg0) (V c main_arg2)) := by
  show (cfg0.win 2).cut (grid0.coords t) ((dat0 V c).after 2 t) = _
  rw [after0_2]
  unfold out0_2
  rw [View.canon_unit_zero dense1_zero_offsets]
  simp only [View.ld_unit_zero (S := S5000x128) dense1_zero_offsets, View.ld_unit_zero (S := S128x128) dense1_zero_offsets]
  obtain ⟨e0, e1, e2, e3, e4, e5⟩ := dense1_block_indices t
  funext j
  refine (dense1_block_apply _ _ j).trans ?_
  refine Eq.trans ?_ (val_main_v7_apply (V c main_arg0) (V c main_arg2) (((cfg0.win 2).blk t).view.emb j)).symm
  refine Finset.sum_congr rfl fun k _ => ?_
  -- the block's entry (r, k) is the array's entry (5000·t + r, k)
  have hl : ((cfg0.win 0).blk t).view.emb (dense1_blockRow j k) = lidx_main_v7 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  -- the weights' block is the whole matrix: its entry (k, n) is the matrix's entry (k, n)
  have hr : ((cfg0.win 1).blk t).view.emb (dense1_weightCol j k) = ridx_main_v7 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) hl) (congrArg (V c main_arg2) hr)

/-- An entry of the result lies in point t's block iff each coordinate lies in the block's range on its axis. -/
theorem dense1_mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000, which is written back. -/
theorem dense1_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < 20 := by omega
  obtain ⟨e0, e1, e2, e3, e4, e5⟩ := dense1_block_indices ⟨(i 0).val / 5000, ht⟩
  refine ⟨⟨(i 0).val / 5000, ht⟩, flush0_2 _, ?_⟩
  rw [dense1_mem_block]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- The first dense layer's array: twenty row blocks of 5000 rows, each the product of that block of the features with
    the whole weight matrix, are together the rows of the one product of the features with the weights. -/
theorem region0_value (c : Dev nD) :
    (dat0 (F := Ideal) V c).arrAt 2 cfg0.N = val_main_v7 (F := Ideal) (V c main_arg0) (V c main_arg2) :=
  (dat0 (F := Ideal) V c).arrAt_eq_of_cover 2 (val_main_v7 (F := Ideal) (V c main_arg0) (V c main_arg2))
    (fun t _ => dense1_flushed V c t) dense1_cover

end Cert.Gcn

end
-- ==== Proof.BiasRelu.lean ====
import proofs.«124625_j51677046505721_1_alg».proof.Proof.Gen.KernelIdeal.Frame
import proofs.«124625_j51677046505721_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Idealize.ShloMosaic Idealize.ShloMosaic.TcCoe Idealize.SL.Sem
open Cert.KernelIdeal Cert.KernelIdeal.Gen
open Cert.ReferenceIdeal.ReadP

variable (V : (c : Dev nD) → (b : Ref sig .tc) → Buf (Elt Ideal) ((c : Thread nD τ).loc b))

namespace BiasRelu

section Entries
open Idealize.ShloMosaic.ValueIdx

/-- The two zero offsets of a whole-block rectangle, as a function. -/
theorem zeroOffsets : (![0, 0] : Fin 2 → Nat) = fun _ => 0 :=
  funext fun a => match a with | ⟨0, _⟩ => rfl | ⟨1, _⟩ => rfl

/-- One entry of the body's result: the block's entry plus the bias row's entry in that column, cut off below at zero. -/
theorem biasRelu_entry {F : FTy → Type} [FloatOps F] (a : Vec F S5000x128 .f32) (b : Vec F S1x128 .f32)
    (p : Fin 5000) (q : Fin 128) :
    k1_pay1 a b (ix2 p q)
      = FloatOps.maximumf (FloatOps.addf (a (ix2 p q)) (b (ix2 (0 : Fin 1) q))) (FloatOps.ofBits .f32 0x00000000#32) := by
  unfold k1_pay1
  show FloatOps.maximumf (FloatOps.addf (shapeCast S5000x128 a shapeCasts_S5000x128_S5000x128 (ix2 p q))
      (broadcastTo S5000x128 (shapeCast S1x128 b shapeCasts_S1x128_S1x128) broadcasts_S1x128_S5000x128 (ix2 p q)))
    (FloatOps.ofBits .f32 0x00000000#32) = _
  rw [shapeCast_self, shapeCast_self, broadcastTo_1b_ab_apply]

/-- One entry of the reference's stage: the aggregate's entry plus the bias at that column, cut off below at zero. -/
theorem stage_entry {F : FTy → Type} [FloatOps F] (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x128, .f32⟩ : BufTy).Contents (Elt F))
    (x3 : (⟨Cert.ReferenceIdeal.S128, .f32⟩ : BufTy).Contents (Elt F)) (i : Cert.ReferenceIdeal.S100000x128.Idx) :
    val_main_v47 (F := F) x0 x1 x2 x3 i
      = FloatOps.maximumf (FloatOps.addf (val_main_v43 (F := F) x0 x1 x2 i) (x3 (ix1 (i 1)))) (FloatOps.ofBits .f32 0x00000000#32) := by
  rw [val_main_v47_apply, val_main_v46_apply, val_main_v45_apply, val_main_v44_apply, val_main_call1_v0_apply,
    val_main_call1_cst_apply]
  have e : idx_main_v44 (idx_main_v45 i) = ix1 (i 1) := funext fun a => match a with | ⟨0, _⟩ => rfl
  rw [e]
  rfl

end Entries

section Blocks
open Idealize.ShloMosaic.ValueIdx

/-- The printed index maps over the grid: the aggregate's and the result's block at point `t` is row block `t`, column
    block 0; the bias row's block is the whole row at every point. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the aggregate's block at point `t` is entry (5000 t + p, q) of the aggregate. -/
theorem aggBlock_entry (c : Dev nD) (t : Fin cfg1.N) (p : Fin 5000) (q : Fin 128) (i : S100000x128.Idx)
    (h0 : (i 0).val = t.val * 5000 + p.val) (h1 : (i 1).val = q.val) :
    (iblk1 V c 0 t : Vec Ideal S5000x128 .f32) (ix2 p q) = (V c main_v43 : S100000x128.Idx → Elt Ideal .f32) i := by
  obtain ⟨e00, e01, -, -, -, -⟩ := blockIndex t
  unfold iblk1
  rw [View.read_apply]
  show V c main_v43 _ = V c main_v43 _
  congr 1
  funext a
  apply Fin.ext
  match a with
  | ⟨0, _⟩ => show win1_0.index t (0 : Fin 2) * 5000 + 1 * p.val = (i 0).val; rw [e00, h0]; omega
  | ⟨1, _⟩ => show win1_0.index t (1 : Fin 2) * 128 + 1 * q.val = (i 1).val; rw [e01, h1]; omega

/-- Entry (0, q) of the bias row's block, at every point, is entry (0, q) of the bias row. -/
theorem biasBlock_entry (c : Dev nD) (t : Fin cfg1.N) (q : Fin 128) :
    (iblk1 V c 1 t : Vec Ideal S1x128 .f32) (ix2 (0 : Fin 1) q)
      = (V c main_v44 : S1x128.Idx → Elt Ideal .f32) (ix2 (0 : Fin 1) q) := by
  obtain ⟨-, -, e10, e11, -, -⟩ := blockIndex t
  unfold iblk1
  rw [View.read_apply]
  show V c main_v44 _ = V c main_v44 _
  congr 1
  funext a
  apply Fin.ext
  match a with
  | ⟨0, _⟩ => show win1_1.index t (0 : Fin 2) * 1 + 1 * 0 = 0; rw [e10]
  | ⟨1, _⟩ => show win1_1.index t (1 : Fin 2) * 128 + 1 * q.val = q.val; rw [e11]; omega

/-- Entry (p, q) of the result's block at point `t` sits at entry (5000 t + p, q) of the result. -/
theorem outBlock_pos (t : Fin cfg1.N) (p : Fin 5000) (q : Fin 128) :
    ((((cfg1.win 2).blk t).view.emb (ix2 p q) : S100000x128.Idx) 0).val = t.val * 5000 + p.val
    ∧ ((((cfg1.win 2).blk t).view.emb (ix2 p q) : S100000x128.Idx) 1).val = q.val := by
  obtain ⟨-, -, -, -, e20, e21⟩ := blockIndex t
  constructor
  · show win1_2.index t (0 : Fin 2) * 5000 + 1 * p.val = _; rw [e20]; omega
  · show win1_2.index t (1 : Fin 2) * 128 + 1 * q.val = _; rw [e21]; omega

end Blocks

section Array
open Idealize.ShloMosaic.ValueIdx

/-- Entry (p, q) of what point `t` computes is the stage's entry at the place the result's block puts it, when the region
    finds the reference's aggregate and the bias as a row. -/
theorem pointEntry_eq (c : Dev nD) (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (h43 : V c main_v43 = val_main_v43 (F := Ideal) x0 x1 x2)
    (h44 : V c main_v44 = shapeCast S1x128 x3 shapeCasts_S128_S1x128) (t : Fin cfg1.N) (p : Fin 5000) (q : Fin 128) :
    k1_pay1 (iblk1 V c 0 t) (iblk1 V c 1 t) (ix2 p q)
      = val_main_v47 (F := Ideal) x0 x1 x2 x3 (((cfg1.win 2).blk t).view.emb (ix2 p q)) := by
  obtain ⟨hr, hc⟩ := outBlock_pos t p q
  refine (biasRelu_entry (F := Ideal) (iblk1 V c 0 t) (iblk1 V c 1 t) p q).trans ?_
  rw [aggBlock_entry V c t p q (((cfg1.win 2).blk t).view.emb (ix2 p q)) hr hc, biasBlock_entry V c t q, h43, h44,
    shapeCast_a_1a_apply, stage_entry]
  have e : (((cfg1.win 2).blk t).view.emb (ix2 p q) : S100000x128.Idx) 1 = q := Fin.ext hc
  rw [e]

/-- A block of the result's shape, cut to what point `t` writes back, is the block at `t` of an array as soon as each of its
    entries is the array's entry at the place the block puts it. -/
theorem writeBack_of_entries (t : Fin cfg1.N) (P : Vec Ideal S5000x128 .f32)
    (G : (⟨Cert.ReferenceIdeal.S100000x128, .f32⟩ : BufTy).Contents (Elt Ideal))
    (h : ∀ (p : Fin 5000) (q : Fin 128), P (ix2 p q) = G (((cfg1.win 2).blk t).view.emb (ix2 p q))) :
    (cfg1.win 2).cut (grid1.coords t) P = ((cfg1.win 2).blk t).view.read (Elt Ideal) G := by
  funext j
  obtain ⟨p, q, rfl⟩ : ∃ (p : Fin 5000) (q : Fin 128), j = ix2 p q := ⟨j 0, j 1, eq_ix2 j⟩
  exact h p q

/-- What point `t` writes back is block `t` of the reference's stage, when the region finds the reference's aggregate
    and the bias as a row: the body's one store leaves its sum-then-maximum of the two blocks it loads. -/
theorem writeBack_eq (c : Dev nD) (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (h43 : V c main_v43 = val_main_v43 (F := Ideal) x0 x1 x2)
    (h44 : V c main_v44 = shapeCast S1x128 x3 shapeCasts_S128_S1x128) (t : Fin cfg1.N) :
    (dat1 (F := Ideal) V c).flushed 2 t
      = ((cfg1.win 2).blk t).view.read (Elt Ideal) (val_main_v47 (F := Ideal) x0 x1 x2 x3) := by
  show (cfg1.win 2).cut (grid1.coords t) ((dat1 (F := Ideal) V c).after 2 t) = _
  rw [after1_2]
  unfold out1_2
  rw [View.canon_unit_zero zeroOffsets]
  simp only [View.ld_unit_zero (S := S5000x128) zeroOffsets, View.ld_unit_zero (S := S1x128) zeroOffsets]
  exact writeBack_of_entries t _ _ (pointEntry_eq V c x0 x1 x2 x3 h43 h44 t)

/-- An entry of the result is in point `t`'s block iff each coordinate is in the block's range on its axis. -/
theorem mem_outBlock (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every entry of the result is written back by some point: row `r` lies in row block `r / 5000`. -/
theorem outBlocks_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, e20, e21⟩ := blockIndex ⟨(i 0).val / 5000, ht⟩
  have e20' : win1_2.index ⟨(i 0).val / 5000, ht⟩ (0 : Fin 2) = (i 0).val / 5000 := e20
  refine ⟨⟨(i 0).val / 5000, ht⟩, flush1_2 _, ?_⟩
  rw [mem_outBlock]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20']; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e21]; omega

end Array

end BiasRelu

/-- The bias-and-rectify layer's array: block by block, the aggregated features plus the bias row, cut off below at
    zero, which is the reference's stage when the region finds the reference's aggregate and the bias as a row. -/
theorem region1_value (c : Dev nD) (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (h43 : V c main_v43 = val_main_v43 (F := Ideal) x0 x1 x2)
    (h44 : V c main_v44 = shapeCast S1x128 x3 shapeCasts_S128_S1x128) :
    (dat1 (F := Ideal) V c).arrAt 2 cfg1.N = val_main_v47 (F := Ideal) x0 x1 x2 x3 :=
  (dat1 (F := Ideal) V c).arrAt_eq_of_cover 2 (val_main_v47 (F := Ideal) x0 x1 x2 x3)
    (fun t _ => BiasRelu.writeBack_eq V c x0 x1 x2 x3 h43 h44 t) BiasRelu.outBlocks_cover

end Cert.Gcn

end
-- ==== Proof.DenseTwo.lean ====
import proofs.«124625_j51677046505721_1_alg».proof.Proof.Gen.KernelIdeal.Frame
import proofs.«124625_j51677046505721_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Idealize.ShloMosaic Idealize.ShloMosaic.TcCoe Idealize.SL.Sem
open Cert.KernelIdeal Cert.KernelIdeal.Gen
open Cert.ReferenceIdeal.ReadP

/-! ## One block's product, entry by entry

The body multiplies a block of 5000 rows (5000 × 128) by the whole 128 × 64 weight matrix into a zero accumulator.
Over the extended reals the two roundings to bf16 change nothing and the product's entry (r, n) is the plain sum
over k of block[r, k] · weight[k, n]. -/

/-- The left operand's index on its row axis is the output row. -/
theorem dense2_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's index on its column axis is the contracted index. -/
theorem dense2_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index on its row axis is the contracted index. -/
theorem dense2_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's index on its column axis is the output column. -/
theorem dense2_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (r, k) of the block of rows, for the output entry (r, n). -/
abbrev dense2_blockRow (j : S5000x64.Idx) (k : Fin 128) : S5000x128.Idx := fun a => match a with
  | ⟨0, _⟩ => ⟨(j 0).val, (j 0).isLt⟩
  | ⟨1, _⟩ => ⟨k.val, k.isLt⟩
/-- Entry (k, n) of the weight matrix, for the output entry (r, n). -/
abbrev dense2_weightCol (j : S5000x64.Idx) (k : Fin 128) : S128x64.Idx := fun a => match a with
  | ⟨0, _⟩ => ⟨k.val, k.isLt⟩
  | ⟨1, _⟩ => ⟨(j 1).val, (j 1).isLt⟩

/-- The block's product at (r, n) is the sum over k of block[r, k] · weight[k, n]: the reshape to the same shape and
    the changes of format are the identity, the accumulator is zero, and the one contracted axis is re-indexed by
    0 … 127. -/
theorem dense2_block_apply (x0 : Vec Ideal S5000x128 .f32) (x1 : Vec Ideal S128x64 .f32) (j : S5000x64.Idx) :
    k2_pay1 (F := Ideal) x0 x1 j = ∑ k : Fin 128, x0 (dense2_blockRow j k) * x1 (dense2_weightCol j k) := by
  unfold k2_pay1
  rw [shapeCast_self]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = dense2_blockRow j k := funext fun a => Fin.ext (by
    match a with
    | ⟨0, _⟩ => exact dense2_lhs_0 _ _
    | ⟨1, _⟩ => exact (dense2_lhs_1 _ _).trans hk)
  have er : dot_S5000x128_S128x64_S5000x64_1_0_0_1_n_n.rhsIdx j ((ValueIdx.contrEquiv1 dot_S5000x128_S128x64_S5000x64_1_0_0_1_n_n 128 rfl rfl).symm k) = dense2_weightCol j k := funext fun a => Fin.ext (by
    match a with
    | ⟨0, _⟩ => exact (dense2_rhs_0 _ _).trans hk
    | ⟨1, _⟩ => exact dense2_rhs_1 _ _)
  rw [el, er]
  rfl

/-! ## From the twenty blocks to the array

Grid point t reads rows 5000·t … 5000·t + 4999 of the left array and the whole weight matrix, and writes rows
5000·t … 5000·t + 4999 of the result. So what it writes back is that block of rows of the one product of the whole
arrays, and the twenty blocks fill the result: row r lies in block r / 5000. -/

/-- Every access of the body starts at the block's origin. -/
theorem dense2_zero_offsets : (![0, 0] : Fin 2 → Nat) = fun _ => 0 := funext fun a => by fin_cases a <;> rfl

/-- The block indices at grid point t, decided over the twenty points: the rows' block and the result's block are
    block t of their arrays, the weights' block is the whole matrix, and no window moves along the columns. -/
theorem dense2_block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- Reading block t of an array of the result's shape: the block's entry (r, n) is the array's entry (5000·t + r, n). -/
theorem dense2_read_block (t : Fin cfg2.N) (G : (⟨S100000x64, .f32⟩ : BufTy).Contents (Elt Ideal)) (j : S5000x64.Idx) :
    ((cfg2.win 2).blk t).view.read (Elt Ideal) G j = G (((cfg2.win 2).blk t).view.emb j) := rfl

/-- What grid point t writes back is block t of the product of the whole arrays: entry (r, n) of the block's product
    is the sum over k of hidden[5000·t + r, k] · weights[k, n], which is the whole product's entry (5000·t + r, n). -/
theorem dense2_flushed (c : Dev nD) (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (h45 : V c main_v45 = val_main_v47 (F := Ideal) x0 x1 x2 x3)
    (h4 : V c main_arg4 = x4) (t : Fin cfg2.N) :
    (dat2 (F := Ideal) V c).flushed 2 t
      = ((cfg2.win 2).blk t).view.read (Elt Ideal) (val_main_v48 (F := Ideal) x0 x1 x2 x3 x4) := by
  show (cfg2.win 2).cut (grid2.coords t) ((dat2 V c).after 2 t) = _
  rw [after2_2]
  unfold out2_2
  rw [View.canon_unit_zero dense2_zero_offsets]
  simp only [View.ld_unit_zero (S := S5000x128) dense2_zero_offsets, View.ld_unit_zero (S := S128x64) dense2_zero_offsets]
  obtain ⟨e0, e1, e2, e3, e4, e5⟩ := dense2_block_indices t
  funext j
  refine (dense2_block_apply _ _ j).trans ?_
  refine Eq.trans ?_ (dense2_read_block t (val_main_v48 (F := Ideal) x0 x1 x2 x3 x4) j).symm
  rw [val_main_v48_apply, ← h45, ← h4]
  refine Finset.sum_congr rfl fun k _ => ?_
  -- the block's entry (r, k) is the array's entry (5000·t + r, k)
  have hl : ((cfg2.win 0).blk t).view.emb (dense2_blockRow j k) = lidx_main_v48 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  -- the weights' block is the whole matrix: its entry (k, n) is the matrix's entry (k, n)
  have hr : ((cfg2.win 1).blk t).view.emb (dense2_weightCol j k) = ridx_main_v48 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact congrArg₂ (fun a b : EReal => a * b) (congrArg (V c main_v45) hl) (congrArg (V c main_arg4) hr)

/-- An entry of the result lies in point t's block iff each coordinate lies in the block's range on its axis. -/
theorem dense2_mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row r of the result lies in the block of point r / 5000, which is written back. -/
theorem dense2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 5000 < 20 := by omega
  obtain ⟨e0, e1, e2, e3, e4, e5⟩ := dense2_block_indices ⟨(i 0).val / 5000, ht⟩
  refine ⟨⟨(i 0).val / 5000, ht⟩, flush2_2 _, ?_⟩
  rw [dense2_mem_block]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win2_2.index ⟨(i 0).val / 5000, ht⟩ (1 : Fin 2) * 64 ≤ (i 1).val ∧ (i 1).val < win2_2.index ⟨(i 0).val / 5000, ht⟩ (1 : Fin 2) * 64 + 64; omega

/-- The second dense layer's array: the row blocks' products with the whole second weight matrix are the rows of the one
    product of the hidden features with it. -/
theorem region2_value (c : Dev nD) (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (h45 : V c main_v45 = val_main_v47 (F := Ideal) x0 x1 x2 x3)
    (h4 : V c main_arg4 = x4) :
    (dat2 (F := Ideal) V c).arrAt 2 cfg2.N = val_main_v48 (F := Ideal) x0 x1 x2 x3 x4 :=
  (dat2 (F := Ideal) V c).arrAt_eq_of_cover 2 (val_main_v48 (F := Ideal) x0 x1 x2 x3 x4)
    (fun t _ => dense2_flushed V c x0 x1 x2 x3 x4 h45 h4 t) dense2_cover

end Cert.Gcn

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.LogSoftmax.lean ====
import proofs.«124625_j51677046505721_1_alg».proof.Proof.Gen.KernelIdeal.Frame
import proofs.«124625_j51677046505721_1_alg».proof.Proof.RefRead
import Idealize.ShloMosaic.Lib.Pipeline.Value
import Idealize.ShloMosaic.Lib.ValueIdx
import Idealize.ShloMosaic.Lib.ValueLayout
import Idealize.ShloMosaic.PureOps.Ideal.Laws
import proofs.«124625_j51677046505721_1_alg».proof.Proof.LibRowOps

set_option maxRecDepth 16384

noncomputable section

namespace Cert.Gcn

open Idealize.ShloMosaic Idealize.ShloMosaic.TcCoe Idealize.SL.Sem
open Cert.KernelIdeal Cert.KernelIdeal.Gen
open Cert.ReferenceIdeal.ReadP
open Idealize.ShloMosaic.ValueIdx

/-! ## The specification: the log-softmax of one row, and of every row of a matrix plus a bias row -/

/-- The log-softmax of a row `z` of 64 extended reals at column `q`: with `M` the maximum of the row folded from
    minus infinity, `z q - M - log (Σₖ exp (z k - M))`. -/
def rowLogSoftmax (z : Fin 64 → EReal) (q : Fin 64) : EReal :=
  z q - (Finset.univ : Finset (Fin 64)).fold max (Ideal.ofBits .f32 0xFF800000#32) z
    - Ideal.log (∑ k : Fin 64, Ideal.exp (z k - (Finset.univ : Finset (Fin 64)).fold max (Ideal.ofBits .f32 0xFF800000#32) z))

/-- Row `r` of the result is the log-softmax of row `r` of `A` plus the bias row `B`. -/
def biasLogSoftmax (A : S100000x64.Idx → EReal) (B : S1x64.Idx → EReal) : S100000x64.Idx → EReal := fun i =>
  rowLogSoftmax (fun k => A (ix2 (⟨(i 0).val, idx2_lt0 i⟩ : Fin 100000) k) + B (ix2 (0 : Fin 1) k)) ⟨(i 1).val, idx2_lt1 i⟩

/-- The specification at an index given by its coordinates. -/
theorem biasLogSoftmax_apply (A : S100000x64.Idx → EReal) (B : S1x64.Idx → EReal) (r : Fin 100000) (q : Fin 64) :
    biasLogSoftmax A B (ix2 r q) = rowLogSoftmax (fun k => A (ix2 r k) + B (ix2 (0 : Fin 1) k)) q := rfl

/-! ## The kernel's block: the same function of the block's rows -/

/-- The body's arithmetic after the bias is added, on a block `z` of 5000 rows, read at `(p, q)`: the row maximum and
    the row sum of exponentials are reductions along axis 1, kept as columns and broadcast back over the row, so the
    element is the log-softmax of row `p` of `z` at column `q`. -/
theorem block_row_apply (z : FVec Ideal S5000x64 .f32)
    (hr : S5000x64.Reduces [1] S5000) (hc : S5000.ShapeCasts S5000x1) (hb : S5000x1.Broadcasts S5000x64)
    (hφ : FKind.Formats .f32) (hmax : (0xFF800000#32 : BitVec 32) = FKind.maximumf.neutral .f32 hφ)
    (hadd : (0x00000000#32 : BitVec 32) = FKind.add.neutral .f32 hφ) (p : Fin 5000) (q : Fin 64) :
    subf (subf z (broadcastTo S5000x64 (shapeCast S5000x1 (multiReduction .maximumf [1] S5000 z 0xFF800000#32 hr hφ hmax) hc) hb))
      (broadcastTo S5000x64 (log (shapeCast S5000x1 (multiReduction .add [1] S5000
        (exp (subf z (broadcastTo S5000x64 (shapeCast S5000x1 (multiReduction .maximumf [1] S5000 z 0xFF800000#32 hr hφ hmax) hc) hb)))
        0x00000000#32 hr hφ hadd) hc)) hb) (ix2 p q)
      = rowLogSoftmax (fun k => z (ix2 p k)) q := by
  have hM : ∀ k : Fin 64, broadcastTo S5000x64 (shapeCast S5000x1 (multiReduction .maximumf [1] S5000 z 0xFF800000#32 hr hφ hmax) hc) hb (ix2 p k)
      = (Finset.univ : Finset (Fin 64)).fold max (Ideal.ofBits .f32 0xFF800000#32) (fun k => z (ix2 p k)) := fun k => by
    rw [RowOps.broadcastTo_a1_ab_apply, RowOps.shapeCast_a_a1_apply, RowOps.multiReduction_max_row]
  rw [subf_apply, subf_apply, hM, RowOps.broadcastTo_a1_ab_apply]
  show _ - Ideal.log (shapeCast S5000x1 _ hc (ix2 p (0 : Fin 1))) = _
  rw [RowOps.shapeCast_a_a1_apply, RowOps.multiReduction_add_row]
  unfold rowLogSoftmax
  refine congrArg (fun s => _ - Ideal.log s) (Finset.sum_congr rfl fun k _ => ?_)
  show Ideal.exp (subf z _ (ix2 p k)) = _
  rw [subf_apply, hM]

/-- The body's payload at `(p, q)` of the block: the log-softmax of the block's row `p` plus the bias row. -/
theorem payload_apply (v0 : Vec Ideal S5000x64 .f32) (v2 : Vec Ideal S1x64 .f32) (p : Fin 5000) (q : Fin 64) :
    k3_pay1 (F := Ideal) v0 v2 (ix2 p q) = rowLogSoftmax (fun k => v0 (ix2 p k) + v2 (ix2 (0 : Fin 1) k)) q := by
  unfold k3_pay1
  dsimp only
  refine (block_row_apply _ _ _ _ _ _ _ p q).trans ?_
  refine congrArg (fun z => rowLogSoftmax z q) (funext fun k => ?_)
  rw [addf_apply, shapeCast_self, shapeCast_self, broadcastTo_1b_ab_apply]

/-! ## The reference: the same function of the whole array -/

section Reference

variable (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))

/-- The reference's row maximum: the host reduction folds `max` from minus infinity over the row, and the maximum
    with minus infinity taken once more leaves that fold. -/
theorem ref_max (r : Fin 100000) :
    val_main_call3_v2 (F := Ideal) x0 x1 x2 x3 x4 x5 (ix1 r)
      = (Finset.univ : Finset (Fin 64)).fold max (Ideal.ofBits .f32 0xFF800000#32)
          (fun k => val_main_v87 (F := Ideal) x0 x1 x2 x3 x4 x5 (ix2 r k)) := by
  rw [val_main_call3_v2_apply, val_main_call3_v1_apply, val_main_call3_cst_0_apply]
  unfold val_main_call3_v0
  rw [RowOps.hostReduce_max_row _ _ _ (by decide) _ r, val_main_call3_cst_apply]
  exact RowOps.max_fold_max_self _ _ _

/-- The reference's shifted logits at `(r, q)`: the biased logit less its row's maximum. -/
theorem ref_shifted (r : Fin 100000) (q : Fin 64) :
    val_main_call3_v5 (F := Ideal) x0 x1 x2 x3 x4 x5 (ix2 r q)
      = val_main_v87 (F := Ideal) x0 x1 x2 x3 x4 x5 (ix2 r q)
        - (Finset.univ : Finset (Fin 64)).fold max (Ideal.ofBits .f32 0xFF800000#32)
            (fun k => val_main_v87 (F := Ideal) x0 x1 x2 x3 x4 x5 (ix2 r k)) := by
  rw [val_main_call3_v5_apply, val_main_call3_v4_apply, val_main_call3_v3_apply,
    show idx_main_call3_v3 (idx_main_call3_v4 (ix2 r q)) = ix1 r from
      funext fun a => Fin.ext (by match a with | ⟨0, _⟩ => rfl),
    ref_max, Ideal.subf_def]

/-- The reference's row sum of exponentials: the host sum from the zero word over the row. -/
theorem ref_sum (r : Fin 100000) :
    val_main_call3_v7 (F := Ideal) x0 x1 x2 x3 x4 x5 (ix1 r)
      = ∑ k : Fin 64, Ideal.exp (val_main_call3_v5 (F := Ideal) x0 x1 x2 x3 x4 x5 (ix2 r k)) := by
  rw [val_main_call3_v7_apply, val_main_call3_cst_1_apply]
  show Ideal.ofBits .f32 0x00000000#32 + _ = _
  rw [Ideal.ofBits_zero_f32, zero_add]
  refine Finset.sum_congr rfl fun k _ => ?_
  rw [show idx_main_call3_v7 (ix1 r) k = ix2 r k from
    funext fun a => Fin.ext (by match a with | ⟨0, _⟩ => rfl | ⟨1, _⟩ => rfl), val_main_call3_v6_apply,
    Ideal.hostUnary_exp_def]

/-- The biased logits at `(r, k)`: the aggregated logit plus the bias read as a row. -/
theorem ref_biased (r : Fin 100000) (k : Fin 64) :
    val_main_v87 (F := Ideal) x0 x1 x2 x3 x4 x5 (ix2 r k)
      = val_main_v84 (F := Ideal) x0 x1 x2 x3 x4 (ix2 r k) + shapeCast S1x64 x5 shapeCasts_S64_S1x64 (ix2 (0 : Fin 1) k) := by
  rw [val_main_v87_apply, val_main_v86_apply, val_main_v85_apply,
    show idx_main_v85 (idx_main_v86 (ix2 r k)) = ix1 k from
      funext fun a => Fin.ext (by match a with | ⟨0, _⟩ => rfl),
    shapeCast_a_1a_apply, Ideal.addf_def]

/-- The reference's last stage is the specification of its scatter's result and the bias row. -/
theorem reference_eq :
    val_main_v88 (F := Ideal) x0 x1 x2 x3 x4 x5
      = biasLogSoftmax (val_main_v84 (F := Ideal) x0 x1 x2 x3 x4) (shapeCast S1x64 x5 shapeCasts_S64_S1x64) := by
  funext i
  obtain ⟨r, q, rfl⟩ : ∃ (r : Fin 100000) (q : Fin 64), i = ix2 r q := ⟨i 0, i 1, eq_ix2 i⟩
  rw [biasLogSoftmax_apply, val_main_v88_apply, val_main_call3_v10_apply, val_main_call3_v9_apply, val_main_call3_v8_apply,
    show idx_main_call3_v8 (idx_main_call3_v10 (ix2 r q)) = ix1 r from
      funext fun a => Fin.ext (by match a with | ⟨0, _⟩ => rfl),
    ref_sum, ref_shifted]
  unfold rowLogSoftmax
  simp only [ref_shifted, ref_biased, Ideal.subf_def, Ideal.hostUnary_log_def]

end Reference

variable (V : (c : Dev nD) → (b : Ref sig .tc) → Buf (Elt Ideal) ((c : Thread nD τ).loc b))

/-! ## From the blocks to the array -/

/-- The body's accesses start at offset zero on both axes. -/
theorem offsets_zero : (![0, 0] : Fin 2 → Nat) = fun _ => 0 := funext fun a => by fin_cases a <;> rfl

/-- The printed index maps, decided over the 20 grid points: at point `t` the logits' window and the result's window are
    at row block `t`, column block 0, and the bias's window is the whole bias row at every point. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some grid point's. -/
theorem block_onto : ∀ b : Fin 20, ∃ t : Fin cfg3.N, win3_2.index t = ![b.val, 0] :=
  (by decide +kernel : ∀ b : Fin 20, ∃ t : Fin grid3.N, win3_2.index t = ![b.val, 0])

/-- A block of 5000 rows of `A` starting at row `5000 n`, with the bias row `B`: the payload at `y` is the specification
    at the array index `i` under `y`, because row `(i 0)` of the array is row `(y 0)` of the block, whole. -/
theorem block_eq (A : S100000x64.Idx → EReal) (B : S1x64.Idx → EReal) (v0 : Vec Ideal S5000x64 .f32) (v2 : Vec Ideal S1x64 .f32)
    (n : ℕ) (hn : n < 20)
    (h0 : ∀ (p : Fin 5000) (k : Fin 64), v0 (ix2 p k) = A (ix2 (⟨n * 5000 + p.val, by have := p.isLt; omega⟩ : Fin 100000) k))
    (h1 : ∀ k : Fin 64, v2 (ix2 (0 : Fin 1) k) = B (ix2 (0 : Fin 1) k))
    (y : S5000x64.Idx) (i : S100000x64.Idx) (hi0 : (i 0).val = n * 5000 + (y 0).val) (hi1 : (i 1).val = (y 1).val) :
    k3_pay1 (F := Ideal) v0 v2 y = biasLogSoftmax A B i := by
  obtain ⟨p, q, rfl⟩ : ∃ (p : Fin 5000) (q : Fin 64), y = ix2 p q := ⟨y 0, y 1, eq_ix2 y⟩
  have hb : n * 5000 + p.val < 100000 := by have := p.isLt; omega
  obtain ⟨r, s, rfl⟩ : ∃ (r : Fin 100000) (s : Fin 64), i = ix2 r s := ⟨i 0, i 1, eq_ix2 i⟩
  obtain rfl : r = ⟨n * 5000 + p.val, hb⟩ := Fin.ext hi0
  obtain rfl : s = q := Fin.ext hi1
  rw [payload_apply, biasLogSoftmax_apply]
  exact congrArg (fun z => rowLogSoftmax z s) (funext fun k => by rw [h0, h1])

/-- WHAT POINT `t` WRITES BACK is block `t` of the specification of the two arrays as the region finds them. -/
theorem flushed_eq (c : Dev nD) (t : Fin cfg3.N) :
    (dat3 (F := Ideal) V c).flushed 2 t
      = ((cfg3.win 2).blk t).view.read (Elt Ideal) (biasLogSoftmax (V c main_v59) (V c main_v60)) := by
  show (cfg3.win 2).cut (grid3.coords t) ((dat3 V c).after 2 t) = _
  rw [after3_2]
  unfold out3_2
  rw [View.canon_unit_zero offsets_zero]
  simp only [View.ld_unit_zero (S := S5000x64) offsets_zero, View.ld_unit_zero (S := S1x64) offsets_zero]
  obtain ⟨e0, e1, e2, e3, e4, e5⟩ := block_indices t
  have ht : t.val < 20 := t.isLt.trans_eq (show cfg3.N = 20 from N_3)
  funext j
  show k3_pay1 (F := Ideal) (iblk3 V c 0 t) (iblk3 V c 1 t) j
    = biasLogSoftmax (V c main_v59) (V c main_v60) (((cfg3.win 2).blk t).view.emb j)
  refine block_eq (V c main_v59) (V c main_v60) (iblk3 V c 0 t) (iblk3 V c 1 t) t.val ht (fun p k => ?_) (fun k => ?_) j _ ?_ ?_
  · show V c main_v59 (((cfg3.win 0).blk t).view.emb (ix2 p k)) = _
    refine congrArg (V c main_v59) (funext fun a => Fin.ext ?_)
    match a with
    | ⟨0, _⟩ => show win3_0.index t (0 : Fin 2) * 5000 + 1 * p.val = t.val * 5000 + p.val; rw [e0]; omega
    | ⟨1, _⟩ => show win3_0.index t (1 : Fin 2) * 64 + 1 * k.val = k.val; rw [e1]; omega
  · show V c main_v60 (((cfg3.win 1).blk t).view.emb (ix2 (0 : Fin 1) k)) = _
    refine congrArg (V c main_v60) (funext fun a => Fin.ext ?_)
    match a with
    | ⟨0, _⟩ => show win3_1.index t (0 : Fin 2) * 1 + 1 * 0 = 0; rw [e2]
    | ⟨1, _⟩ => show win3_1.index t (1 : Fin 2) * 64 + 1 * k.val = k.val; rw [e3]; omega
  · show win3_2.index t (0 : Fin 2) * 5000 + 1 * (j 0).val = t.val * 5000 + (j 0).val; rw [e4]; omega
  · show win3_2.index t (1 : Fin 2) * 64 + 1 * (j 1).val = (j 1).val; rw [e5]; omega

/-- An index of the array is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- The 20 row blocks cover the array: row `r` lies in block `r / 5000`. -/
theorem blocks_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := block_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE ARRAY after the region: the specification of the two arrays the region reads. -/
theorem kernel_array (c : Dev nD) :
    (dat3 (F := Ideal) V c).arrAt 2 cfg3.N = biasLogSoftmax (V c main_v59) (V c main_v60) :=
  (dat3 (F := Ideal) V c).arrAt_eq_of_cover 2 (biasLogSoftmax (V c main_v59) (V c main_v60))
    (fun t _ => flushed_eq V c t) blocks_cover

/-- The last layer's array: block by block, each row of the aggregated logits plus the bias row, less its maximum, less
    the logarithm of the sum of the exponentials of those differences: the reference's log-softmax of the same rows
    (whose one more maximum with minus infinity changes nothing). -/
theorem region3_value (c : Dev nD) (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (h59 : V c main_v59 = val_main_v84 (F := Ideal) x0 x1 x2 x3 x4)
    (h60 : V c main_v60 = shapeCast S1x64 x5 shapeCasts_S64_S1x64) :
    (dat3 (F := Ideal) V c).arrAt 2 cfg3.N = val_main_v88 (F := Ideal) x0 x1 x2 x3 x4 x5 := by
  rw [kernel_array V c, h59, h60]
  exact (reference_eq x0 x1 x2 x3 x4 x5).symm

end Cert.Gcn

end
-- ==== Proof.HostReads.lean ====
import proofs.«124625_j51677046505721_1_alg».proof.Proof.Gen.KernelIdeal.Frame
import proofs.«124625_j51677046505721_1_alg».proof.Proof.RefRead
import Idealize.ShloMosaic.Lib.StableHlo.Run

set_option maxRecDepth 16384

noncomputable section

namespace Cert.Gcn

open Idealize.ShloMosaic Idealize.ShloMosaic.TcCoe Idealize.SL.Sem
open Cert.KernelIdeal Cert.KernelIdeal.Gen
open Cert.ReferenceIdeal.ReadP
open Idealize.ShloMosaic.StableHlo
variable {F : FTy → Type} [FloatOps F]
variable (m : (ℓ : Loc nD τ sig) → Buf (Elt F) ℓ) (ρ : Dev nD → PrngReg)

/-- A stretch of host operations leaves every buffer that none of its operations writes: the goal
    `after ops V b = V b` for a literal stretch `ops` and a literal buffer `b`, by listing what each operation writes. -/
local macro "stretch_keeps" : tactic =>
  `(tactic| (refine StableHlo.after_of_forall_not_mem _ _ (List.forall_iff_forall_mem.mp ?_)
             simp only [hostOps0, hostOps0_1, hostOps0_2, hostOps1, hostOps3, List.flatten_cons, List.flatten_nil,
               List.append_nil, List.cons_append, List.nil_append, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! What the host operations before the first region leave, and that nothing later touches it: the source and target
    indices with the self loops appended, the symmetric normalisation of every edge, and the arguments.

    The kernel's program computes the normalisation in three stretches. The first builds the source and target index
    vectors (row 0 and row 1 of the edge array, each followed by the self loops `0 … n-1`), the degree of every node
    (the scatter-add of ones at the targets), the test `degree > 0` and `1 / sqrt degree`. The second is the outlined
    selection `where (degree > 0) (1 / sqrt degree) 0`. The third wraps negative indices, gathers the selected value at
    the source and at the target of every edge and multiplies the two. Each stretch is read on its own, from the
    contents the stretch before it left, and set against the reference's stage of the same operations. -/

/-! ### The first stretch, read from the launch memory -/

/-- The source indices with the self loops appended. -/
private theorem src_W1 (c : Dev nD) :
    W1 m ρ c (Proc.devRef .tc main_v3) = val_main_v3 (F := F) (m ((c : Thread nD τ).loc main_arg1)) := by
  show StableHlo.after hostOps0 (W0 m ρ c) (Proc.devRef .tc main_v3) = _
  after_results
  rfl
/-- The target indices with the self loops appended. -/
private theorem dst_W1 (c : Dev nD) :
    W1 m ρ c (Proc.devRef .tc main_v6) = val_main_v6 (F := F) (m ((c : Thread nD τ).loc main_arg1)) := by
  show StableHlo.after hostOps0 (W0 m ρ c) (Proc.devRef .tc main_v6) = _
  after_results
  rfl
/-- The test `degree > 0`, the degree being the scatter-add of ones at the targets. -/
private theorem pos_W1 (c : Dev nD) :
    W1 m ρ c (Proc.devRef .tc main_v12) = val_main_v13 (F := F) (m ((c : Thread nD τ).loc main_arg1)) := by
  show StableHlo.after hostOps0 (W0 m ρ c) (Proc.devRef .tc main_v12) = _
  after_results
  rfl
/-- `1 / sqrt degree`. -/
private theorem rsqrt_W1 (c : Dev nD) :
    W1 m ρ c (Proc.devRef .tc main_v13) = val_main_v14 (F := F) (m ((c : Thread nD τ).loc main_arg1)) := by
  show StableHlo.after hostOps0 (W0 m ρ c) (Proc.devRef .tc main_v13) = _
  after_results
  rfl
/-- The scalar zero the selection falls back to. -/
private theorem zero_W1 (c : Dev nD) :
    W1 m ρ c (Proc.devRef .tc main_cst_2) = val_main_cst_2 (F := F) := by
  show StableHlo.after hostOps0 (W0 m ρ c) (Proc.devRef .tc main_cst_2) = _
  after_results
  rfl

/-! ### The second stretch: the selection -/

/-- `where (degree > 0) (1 / sqrt degree) 0`, node by node. -/
private theorem sel_W2 (c : Dev nD) :
    W2 m ρ c (Proc.devRef .tc main_v14) = val_main_v15 (F := F) (m ((c : Thread nD τ).loc main_arg1)) := by
  show StableHlo.after hostOps0_1 (W1 m ρ c) (Proc.devRef .tc main_v14) = _
  have hp := pos_W1 m ρ c
  have hr := rsqrt_W1 m ρ c
  have hz := zero_W1 m ρ c
  generalize W1 m ρ c = V at hp hr hz ⊢
  after_results
  rw [hp, hr, hz]
  rfl
/-- The selection writes neither index vector. -/
private theorem src_W2 (c : Dev nD) :
    W2 m ρ c (Proc.devRef .tc main_v3) = val_main_v3 (F := F) (m ((c : Thread nD τ).loc main_arg1)) :=
  calc W2 m ρ c (Proc.devRef .tc main_v3)
    _ = W1 m ρ c (Proc.devRef .tc main_v3) := by stretch_keeps
    _ = _ := src_W1 m ρ c
private theorem dst_W2 (c : Dev nD) :
    W2 m ρ c (Proc.devRef .tc main_v6) = val_main_v6 (F := F) (m ((c : Thread nD τ).loc main_arg1)) :=
  calc W2 m ρ c (Proc.devRef .tc main_v6)
    _ = W1 m ρ c (Proc.devRef .tc main_v6) := by stretch_keeps
    _ = _ := dst_W1 m ρ c

/-! ### The third stretch: the gathers and the product -/

theorem src_at_entry0 (c : Dev nD) :
    W3 m ρ c (Proc.devRef .tc main_v3) = val_main_v3 (F := F) (m ((c : Thread nD τ).loc main_arg1)) :=
  calc W3 m ρ c (Proc.devRef .tc main_v3)
    _ = W2 m ρ c (Proc.devRef .tc main_v3) := by stretch_keeps
    _ = _ := src_W2 m ρ c
theorem dst_at_entry0 (c : Dev nD) :
    W3 m ρ c (Proc.devRef .tc main_v6) = val_main_v6 (F := F) (m ((c : Thread nD τ).loc main_arg1)) :=
  calc W3 m ρ c (Proc.devRef .tc main_v6)
    _ = W2 m ρ c (Proc.devRef .tc main_v6) := by stretch_keeps
    _ = _ := dst_W2 m ρ c
/-- The selected value gathered at the (wrapped) source index times the same at the (wrapped) target index. -/
theorem norm_at_entry0 (c : Dev nD) :
    W3 m ρ c (Proc.devRef .tc main_v29) = val_main_v30 (F := F) (m ((c : Thread nD τ).loc main_arg1)) := by
  show StableHlo.after hostOps0_2 (W2 m ρ c) (Proc.devRef .tc main_v29) = _
  have hv := sel_W2 m ρ c
  have hs := src_W2 m ρ c
  have hd := dst_W2 m ρ c
  generalize W2 m ρ c = V at hv hs hd ⊢
  after_results_simp
  rw [hv, hs, hd]
  unfold val_main_v30 val_main_v22 val_main_v29 val_main_v21 val_main_v28 val_main_v20 val_main_v27 val_main_v17 val_main_v19
    val_main_v24 val_main_v26 val_main_v16 val_main_v18 val_main_v23 val_main_v25 val_main_c val_main_c_3 val_main_c_4 val_main_c_5
  rfl

/-! ### The arguments and what later regions leave alone

    A buffer keeps its contents through a stretch of host operations none of which writes it, and through a region of
    whose three arrays it is none; an argument of the program is written by nothing, so it walks back to the launch
    memory. -/

/-- An argument as the first region finds it: as launched. -/
private theorem arg_W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl
private theorem arg_W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by stretch_keeps
    _ = W1 m ρ c (Proc.devRef .tc main_arg4) := by stretch_keeps
    _ = W0 m ρ c (Proc.devRef .tc main_arg4) := by stretch_keeps
    _ = m ((c : Thread nD τ).loc main_arg4) := rfl
private theorem arg_W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl

theorem arg0_at_entry0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl
theorem arg2_at_entry0 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

/-! After the first region (its arrays are the features, the first weights and its own output). -/
theorem src_after0 (c : Dev nD) : W4 m ρ c (Proc.devRef .tc main_v3) = W3 m ρ c (Proc.devRef .tc main_v3) :=
  W4_of_ne m ρ c main_v3 (by decide)
theorem dst_after0 (c : Dev nD) : W4 m ρ c (Proc.devRef .tc main_v6) = W3 m ρ c (Proc.devRef .tc main_v6) :=
  W4_of_ne m ρ c main_v6 (by decide)
theorem norm_after0 (c : Dev nD) : W4 m ρ c (Proc.devRef .tc main_v29) = W3 m ρ c (Proc.devRef .tc main_v29) :=
  W4_of_ne m ρ c main_v29 (by decide)
theorem arg3_after0 (c : Dev nD) : W4 m ρ c (Proc.devRef .tc main_arg3) = m ((c : Thread nD τ).loc main_arg3) :=
  (W4_of_ne m ρ c main_arg3 (by decide)).trans (arg_W3_arg3 m ρ c)

/-! At the third region's entry and after it: the second region's arrays are the first aggregation, argument 3 as a row
    and its own output; the third region's are that output, argument 4 and its own output; and the stretch between the
    first two regions writes only its own values (the gather of the first region's output at the sources, its product
    with the normalisation, the aggregation at the targets, argument 3 as a row). -/

/-- From the third region's entry back to the first region's entry, at a buffer neither region nor the stretch between
    them writes. -/
private theorem W6_back (c : Dev nD) (b : Ref sig .tc) (h1 : ∀ w, Pipeline.arrRef spec1 w ≠ b)
    (hs : W5 m ρ c (Proc.devRef .tc b) = W4 m ρ c (Proc.devRef .tc b)) (h0 : ∀ w, Pipeline.arrRef spec0 w ≠ b) :
    W6 m ρ c (Proc.devRef .tc b) = W3 m ρ c (Proc.devRef .tc b) :=
  ((W6_of_ne m ρ c b h1).trans hs).trans (W4_of_ne m ρ c b h0)

theorem arg4_at_entry2 (c : Dev nD) : W6 m ρ c (Proc.devRef .tc main_arg4) = m ((c : Thread nD τ).loc main_arg4) :=
  (W6_back m ρ c main_arg4 (by decide) (by stretch_keeps) (by decide)).trans (arg_W3_arg4 m ρ c)
theorem src_after2 (c : Dev nD) : W7 m ρ c (Proc.devRef .tc main_v3) = W3 m ρ c (Proc.devRef .tc main_v3) :=
  (W7_of_ne m ρ c main_v3 (by decide)).trans (W6_back m ρ c main_v3 (by decide) (by stretch_keeps) (by decide))
theorem dst_after2 (c : Dev nD) : W7 m ρ c (Proc.devRef .tc main_v6) = W3 m ρ c (Proc.devRef .tc main_v6) :=
  (W7_of_ne m ρ c main_v6 (by decide)).trans (W6_back m ρ c main_v6 (by decide) (by stretch_keeps) (by decide))
theorem norm_after2 (c : Dev nD) : W7 m ρ c (Proc.devRef .tc main_v29) = W3 m ρ c (Proc.devRef .tc main_v29) :=
  (W7_of_ne m ρ c main_v29 (by decide)).trans (W6_back m ρ c main_v29 (by decide) (by stretch_keeps) (by decide))
theorem arg5_after2 (c : Dev nD) : W7 m ρ c (Proc.devRef .tc main_arg5) = m ((c : Thread nD τ).loc main_arg5) :=
  ((W7_of_ne m ρ c main_arg5 (by decide)).trans
    (W6_back m ρ c main_arg5 (by decide) (by stretch_keeps) (by decide))).trans (arg_W3_arg5 m ρ c)

end Cert.Gcn

end
-- ==== Proof.HostAgg.lean ====
import proofs.«124625_j51677046505721_1_alg».proof.Proof.Gen.KernelIdeal.Frame
import proofs.«124625_j51677046505721_1_alg».proof.Proof.RefRead
import Idealize.ShloMosaic.Lib.StableHlo.Run
import proofs.«124625_j51677046505721_1_alg».proof.Proof.HostReads

set_option maxRecDepth 16384

noncomputable section

namespace Cert.Gcn

open Idealize.ShloMosaic Idealize.ShloMosaic.TcCoe Idealize.SL.Sem
open Cert.KernelIdeal Cert.KernelIdeal.Gen
open Cert.ReferenceIdeal.ReadP
open Idealize.ShloMosaic.StableHlo
variable {F : FTy → Type} [FloatOps F]
variable (m : (ℓ : Loc nD τ sig) → Buf (Elt F) ℓ) (ρ : Dev nD → PrngReg)

/-! The neighbourhood aggregation between the regions: gather the rows at the sources, scale each by its edge's
    normalisation, add into the rows at the targets. The kernel's program and the reference spell it with the same
    operations, so once what is gathered from agrees, the aggregates agree. -/

/-! ## The reference's second normalisation is its first

For the second layer the reference computes the edge normalisation again, from the same edge array and by the same
operations: the degree of every node (ones added at the targets), its inverse square root where the degree is
positive, that value gathered at each edge's source and at its target, and the product of the two. Stage by stage
the second computation is the first one. -/

/-- The degrees: ones scattered at the targets into zeros. -/
private theorem deg2_eq (x1 : (⟨Cert.ReferenceIdeal.S2x1600000, .i32⟩ : BufTy).Contents (Elt F)) :
    val_main_v52 (F := F) x1 = val_main_v11 (F := F) x1 := by
  unfold val_main_v52 val_main_v11
  rfl

/-- The inverse square root of the degree where it is positive, the same constant elsewhere. -/
private theorem invsqrt2_eq (x1 : (⟨Cert.ReferenceIdeal.S2x1600000, .i32⟩ : BufTy).Contents (Elt F)) :
    val_main_v56 (F := F) x1 = val_main_v15 (F := F) x1 := by
  unfold val_main_v56 val_main_v15 val_main_v54 val_main_v13 val_main_v55 val_main_v14
  rw [deg2_eq]
  rfl

/-- That value gathered at every edge's source. -/
private theorem atsrc2_eq (x1 : (⟨Cert.ReferenceIdeal.S2x1600000, .i32⟩ : BufTy).Contents (Elt F)) :
    val_main_v63 (F := F) x1 = val_main_v22 (F := F) x1 := by
  unfold val_main_v63 val_main_v22
  rw [invsqrt2_eq]
  rfl

/-- That value gathered at every edge's target. -/
private theorem atdst2_eq (x1 : (⟨Cert.ReferenceIdeal.S2x1600000, .i32⟩ : BufTy).Contents (Elt F)) :
    val_main_v70 (F := F) x1 = val_main_v29 (F := F) x1 := by
  unfold val_main_v70 val_main_v29
  rw [invsqrt2_eq]
  rfl

/-- The edge normalisation of the second layer is the one of the first. -/
private theorem norm2_eq (x1 : (⟨Cert.ReferenceIdeal.S2x1600000, .i32⟩ : BufTy).Contents (Elt F)) :
    val_main_v71 (F := F) x1 = val_main_v30 (F := F) x1 := by
  unfold val_main_v71 val_main_v30
  rw [atsrc2_eq, atdst2_eq]

/-! ## The first layer's aggregate and bias row -/

/-- The operations between the first and the second region read the first region's product (assumed to be the
    reference's features times weights), the sources, the targets and the edge normalisation, all as they stood at
    the first region's entry, where they are the reference's stages of the edge array. Composed, they are the
    reference's gather at the (wrapped) sources, product with the normalisation broadcast along the rows, and
    scatter-add at the targets into zeros. -/
theorem agg1_value (c : Dev nD) (x0 : (⟨Cert.ReferenceIdeal.S100000x128, .f32⟩ : BufTy).Contents (Elt F))
    (x2 : (⟨Cert.ReferenceIdeal.S128x128, .f32⟩ : BufTy).Contents (Elt F))
    (h30 : W4 m ρ c (Proc.devRef .tc main_v30) = val_main_v7 (F := F) x0 x2) :
    W5 m ρ c (Proc.devRef .tc main_v43) = val_main_v43 (F := F) x0 (m ((c : Thread nD τ).loc main_arg1)) x2 := by
  show StableHlo.after hostOps1 (W4 m ρ c) (Proc.devRef .tc main_v43) = _
  simp only [hostOps1]
  after_results_simp
  rw [h30, src_after0, src_at_entry0, dst_after0, dst_at_entry0, norm_after0, norm_at_entry0]
  rfl

/-- The first bias as a one-row matrix: the reshape of the argument, which nothing before it has written. -/
theorem bias1_value (c : Dev nD) :
    W5 m ρ c (Proc.devRef .tc main_v44) = shapeCast S1x128 (m ((c : Thread nD τ).loc main_arg3)) shapeCasts_S128_S1x128 := by
  show StableHlo.after hostOps1 (W4 m ρ c) (Proc.devRef .tc main_v44) = _
  after_results
  rw [arg3_after0]
  rfl

/-! ## The second layer's aggregate and bias row -/

/-- The same aggregation over the third region's product (assumed to be the reference's hidden features times the
    second weights). The kernel's program reuses the edge normalisation computed before the first region; the
    reference's recomputed one equals it, so the composed operations are again the reference's. -/
theorem agg2_value (c : Dev nD) (x0 : (⟨Cert.ReferenceIdeal.S100000x128, .f32⟩ : BufTy).Contents (Elt F))
    (x2 : (⟨Cert.ReferenceIdeal.S128x128, .f32⟩ : BufTy).Contents (Elt F))
    (x3 : (⟨Cert.ReferenceIdeal.S128, .f32⟩ : BufTy).Contents (Elt F))
    (x4 : (⟨Cert.ReferenceIdeal.S128x64, .f32⟩ : BufTy).Contents (Elt F))
    (h46 : W7 m ρ c (Proc.devRef .tc main_v46) = val_main_v48 (F := F) x0 (m ((c : Thread nD τ).loc main_arg1)) x2 x3 x4) :
    W8 m ρ c (Proc.devRef .tc main_v59) = val_main_v84 (F := F) x0 (m ((c : Thread nD τ).loc main_arg1)) x2 x3 x4 := by
  show StableHlo.after hostOps3 (W7 m ρ c) (Proc.devRef .tc main_v59) = _
  simp only [hostOps3]
  after_results_simp
  rw [h46, src_after2, src_at_entry0, dst_after2, dst_at_entry0, norm_after2, norm_at_entry0, ← norm2_eq]
  rfl

/-- The second bias as a one-row matrix: the reshape of the argument, which nothing before it has written. -/
theorem bias2_value (c : Dev nD) :
    W8 m ρ c (Proc.devRef .tc main_v60) = shapeCast S1x64 (m ((c : Thread nD τ).loc main_arg5)) shapeCasts_S64_S1x64 := by
  show StableHlo.after hostOps3 (W7 m ρ c) (Proc.devRef .tc main_v60) = _
  after_results
  rw [arg5_after2]
  rfl

end Cert.Gcn

end
-- ==== Proof.KernelValue.lean ====
import proofs.«124625_j51677046505721_1_alg».proof.Proof.DenseOne
import proofs.«124625_j51677046505721_1_alg».proof.Proof.BiasRelu
import proofs.«124625_j51677046505721_1_alg».proof.Proof.DenseTwo
import proofs.«124625_j51677046505721_1_alg».proof.Proof.LogSoftmax
import proofs.«124625_j51677046505721_1_alg».proof.Proof.HostAgg

set_option maxRecDepth 16384

noncomputable section

namespace Cert.Gcn

open Idealize.ShloMosaic Idealize.ShloMosaic.TcCoe Idealize.SL.Sem
open Cert.KernelIdeal Cert.KernelIdeal.Gen
open Cert.ReferenceIdeal.ReadP

variable (m : (ℓ : Loc nD τ sig) → Buf (Elt Ideal) ℓ) (ρ : Dev nD → PrngReg)

/-- The first dense layer's output, as the first aggregation finds it, is the reference's product of the features with
    the first weights: the region's array (region0_value) read at the arguments as launched. -/
theorem dense1_out (c : Dev nD) :
    W4 m ρ c (Proc.devRef .tc main_v30)
      = val_main_v7 (F := Ideal) (m ((c : Thread nD τ).loc main_arg0)) (m ((c : Thread nD τ).loc main_arg2)) := by
  refine (W4_arr m ρ c 2).trans ((region0_value (V3 m ρ) c).trans ?_)
  rw [show V3 m ρ c main_arg0 = m ((c : Thread nD τ).loc main_arg0) from arg0_at_entry0 m ρ c,
    show V3 m ρ c main_arg2 = m ((c : Thread nD τ).loc main_arg2) from arg2_at_entry0 m ρ c]

/-- The hidden features after bias and rectification are the reference's. -/
theorem hidden_out (c : Dev nD) :
    W6 m ρ c (Proc.devRef .tc main_v45)
      = val_main_v47 (F := Ideal) (m ((c : Thread nD τ).loc main_arg0)) (m ((c : Thread nD τ).loc main_arg1))
          (m ((c : Thread nD τ).loc main_arg2)) (m ((c : Thread nD τ).loc main_arg3)) :=
  (W6_arr m ρ c 2).trans (region1_value (V5 m ρ) c _ _ _ _ (agg1_value m ρ c _ _ (dense1_out m ρ c)) (bias1_value m ρ c))

/-- The second dense layer's output is the reference's product of the hidden features with the second weights. -/
theorem dense2_out (c : Dev nD) :
    W7 m ρ c (Proc.devRef .tc main_v46)
      = val_main_v48 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  (W7_arr m ρ c 2).trans (region2_value (V6 m ρ) c _ _ _ _ _ (hidden_out m ρ c) (arg4_at_entry2 m ρ c))

/-- The result array after the last region is the reference's log-softmax of the second aggregate plus its bias. -/
theorem result_value (c : Dev nD) :
    W9 m ρ c (Proc.devRef .tc main_v61)
      = val_main_v88 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) :=
  (W9_arr m ρ c 2).trans (region3_value (V8 m ρ) c _ _ _ _ _ _ (agg2_value m ρ c _ _ _ _ (dense2_out m ρ c)) (bias2_value m ρ c))

end Cert.Gcn

end
-- ==== Proof.lean ====
/- The kernel is a two-layer graph convolution: a dense product, a neighbourhood aggregation (gather the rows at
   each edge's source, scale by the edge's symmetric normalisation, add into the row at its target), a bias and a
   rectification; then a second product and aggregation, a bias, and a row-wise log-softmax. Its four rectangular
   stages run as kernels over twenty blocks of 5000 rows; the aggregations run on the host, spelt exactly as the
   reference spells them. Over the extended reals a change of float format is the identity, a block of rows of a
   product is those rows of the whole product, and a maximum folded from minus infinity is unchanged by one more
   maximum with minus infinity, so every array the kernel's program holds on the way equals the reference's stage of
   the same name, and so does the result. No step uses that the inputs are finite. -/
import proofs.«124625_j51677046505721_1_alg».proof.Defs
import proofs.«124625_j51677046505721_1_alg».proof.Proof.Gen.Kernel
import proofs.«124625_j51677046505721_1_alg».proof.Proof.Gen.Kernel.Skeleton
import proofs.«124625_j51677046505721_1_alg».proof.Proof.Gen.Kernel.Launch
import proofs.«124625_j51677046505721_1_alg».proof.Proof.Gen.Kernel.Points
import proofs.«124625_j51677046505721_1_alg».proof.Proof.Gen.Kernel.Frame
import proofs.«124625_j51677046505721_1_alg».proof.Proof.Gen.KernelIdeal
import proofs.«124625_j51677046505721_1_alg».proof.Proof.Gen.KernelIdeal.Skeleton
import proofs.«124625_j51677046505721_1_alg».proof.Proof.Gen.KernelIdeal.Launch
import proofs.«124625_j51677046505721_1_alg».proof.Proof.Gen.KernelIdeal.Points
import proofs.«124625_j51677046505721_1_alg».proof.Proof.Gen.KernelIdeal.Frame
import proofs.«124625_j51677046505721_1_alg».proof.Proof.Gen.ReferenceIdeal
import proofs.«124625_j51677046505721_1_alg».proof.Proof.Gen.Pre_finite_inputs
import proofs.«124625_j51677046505721_1_alg».proof.Proof.RefRun
import proofs.«124625_j51677046505721_1_alg».proof.Proof.RefRead
import proofs.«124625_j51677046505721_1_alg».proof.Proof.RefRunThm
import proofs.«124625_j51677046505721_1_alg».proof.Proof.KernelRun
import proofs.«124625_j51677046505721_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.ReferenceIdeal.ReadP.val_main_v88 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Gcn.result_value m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v88_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
